-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x256x56x56 : Shape := ⟨5, ![8, 16, 256, 56, 56]⟩
abbrev S_ : Shape := ⟨0, ![]⟩

class Facts : Prop where
  bcast_S_S8x16x256x56x56 : S_.BroadcastsInDim S8x16x256x56x56 (![] : Fin 0 → Fin S8x16x256x56x56.rank)
  reducesTo_S8x16x256x56x56_S_d0_1_2_3_4 : S8x16x256x56x56.ReducesTo [0, 1, 2, 3, 4] S_
  h_S_ : 0 < S_.numel

variable [Facts]

def fn {F : FTy → Type} [FloatOps F] (main_arg0 : FVec F S8x16x256x56x56 .f32) : IVec S_ 1 :=
  let main_v0 : FVec F S8x16x256x56x56 .f32 := Host.absf main_arg0
  let main_cst : FVec F S_ .f32 := constant S_ .f32 0x7F800000#32
  let main_v1 : FVec F S8x16x256x56x56 .f32 := broadcastInDim S8x16x256x56x56 ![] bcast_S_S8x16x256x56x56 main_cst
  let main_v2 : IVec S8x16x256x56x56 1 := cmpf .olt main_v0 main_v1
  let main_c : IVec S_ 1 := constantI S_ 1 1#1
  let main_v3 : IVec S_ 1 := (fun x v => Host.reduce IntOp.andi x v reducesTo_S8x16x256x56x56_S_d0_1_2_3_4 h_S_) main_v2 main_c
  main_v3
-- ==== Kernel.lean ====
abbrev S8x16x256x56x56 : Shape := ⟨5, ![8, 16, 256, 56, 56]⟩
abbrev S1x16x32x8x56 : Shape := ⟨5, ![1, 16, 32, 8, 56]⟩
abbrev S16x32x8x56 : Shape := ⟨4, ![16, 32, 8, 56]⟩
abbrev S16x16x8x56 : Shape := ⟨4, ![16, 16, 8, 56]⟩
abbrev S1x16x8x56 : Shape := ⟨4, ![1, 16, 8, 56]⟩
abbrev S15x16x8x56 : Shape := ⟨4, ![15, 16, 8, 56]⟩

abbrev nBuf : Space → Nat
  | .hbm => 2
  | .vmem => 4
  | .smem => 0
  | _ => 0

abbrev bufTy : (tb : Table) → Fin (tcTables nBuf tb) → BufTy
  | .hbm, ⟨0, _⟩ => ⟨S8x16x256x56x56, .f32⟩
  | .hbm, ⟨1, _⟩ => ⟨S8x16x256x56x56, .f32⟩
  | .local _ .vmem, ⟨0, _⟩ => ⟨S1x16x32x8x56, .f32⟩
  | .local _ .vmem, ⟨1, _⟩ => ⟨S1x16x32x8x56, .f32⟩
  | .local _ .vmem, ⟨2, _⟩ => ⟨S1x16x32x8x56, .f32⟩
  | .local _ .vmem, ⟨3, _⟩ => ⟨S1x16x32x8x56, .f32⟩
  | _, _ => ⟨S8x16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![8, 8, 7], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

abbrev stage0_0 : Fin 2 → Memref sig .tc .vmem S1x16x32x8x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x32x8x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  inb_S1x16x32x8x56_S1x16x32x8x56_0_0_0_0_0 : ∀ a, (![0, 0, 0, 0, 0] : Fin 5 → Nat) a + S1x16x32x8x56.size a ≤ S1x16x32x8x56.size a
  h_S1x16x32x8x56 : 0 < S1x16x32x8x56.numel
  shapeCasts_S1x16x32x8x56_S16x32x8x56 : S1x16x32x8x56.ShapeCasts S16x32x8x56
  slices_S16x32x8x56_o0_0_0_0_S16x16x8x56 : S16x32x8x56.Slices ![0, 0, 0, 0] S16x16x8x56
  slices_S16x32x8x56_o0_16_0_0_S16x16x8x56 : S16x32x8x56.Slices ![0, 16, 0, 0] S16x16x8x56
  slices_S16x16x8x56_o0_0_0_0_S15x16x8x56 : S16x16x8x56.Slices ![0, 0, 0, 0] S15x16x8x56
  concatenates_S1x16x8x56_S15x16x8x56_S16x16x8x56_d0 : Shape.Concatenates [S1x16x8x56, S15x16x8x56] S16x16x8x56 0
  slices_S16x16x8x56_o1_0_0_0_S15x16x8x56 : S16x16x8x56.Slices ![1, 0, 0, 0] S15x16x8x56
  concatenates_S15x16x8x56_S1x16x8x56_S16x16x8x56_d0 : Shape.Concatenates [S15x16x8x56, S1x16x8x56] S16x16x8x56 0
  concatenates_S16x16x8x56_S16x16x8x56_S16x32x8x56_d1 : Shape.Concatenates [S16x16x8x56, S16x16x8x56] S16x32x8x56 1
  shapeCasts_S16x32x8x56_S1x16x32x8x56 : S16x32x8x56.ShapeCasts S1x16x32x8x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32x8x56.size a ≤ S8x16x256x56x56.size a
  hwx0_0 : ∀ i : grid0.Coords, EltTy.bits .f32 = 32 ∨ (Rect.block (s := S8x16x256x56x56) S1x16x32x8x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x32x8x56.size a ≤ S8x16x256x56x56.size a
  hwx0_1 : ∀ i : grid0.Coords, EltTy.bits .f32 = 32 ∨ (Rect.block (s := S8x16x256x56x56) S1x16x32x8x56.size (cc0_transform_1 i) (hinb0_1 i)).WholeWords (EltTy.packing .f32)

variable [Facts₀]

abbrev win0_0 : Pipeline.Window sig grid0 :=
  Pipeline.Window.ofSpec (Memref.whole main_arg0) S1x16x32x8x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x32x8x56.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S8x16x256x56x56 : Shape := ⟨5, ![8, 16, 256, 56, 56]⟩
abbrev S8x16x16x56x56 : Shape := ⟨5, ![8, 16, 16, 56, 56]⟩
abbrev S8x16x224x56x56 : Shape := ⟨5, ![8, 16, 224, 56, 56]⟩
abbrev S8x1x16x56x56 : Shape := ⟨5, ![8, 1, 16, 56, 56]⟩
abbrev S_ : Shape := ⟨0, ![]⟩
abbrev S8x15x16x56x56 : Shape := ⟨5, ![8, 15, 16, 56, 56]⟩

abbrev nBuf : Space → Nat
  | .hbm => 20
  | .vmem => 0
  | .smem => 0
  | _ => 0

abbrev bufTy : (tb : Table) → Fin (tcTables nBuf tb) → BufTy
  | .hbm, ⟨0, _⟩ => ⟨S8x16x256x56x56, .f32⟩
  | .hbm, ⟨1, _⟩ => ⟨S8x16x16x56x56, .f32⟩
  | .hbm, ⟨2, _⟩ => ⟨S8x16x16x56x56, .f32⟩
  | .hbm, ⟨3, _⟩ => ⟨S8x16x224x56x56, .f32⟩
  | .hbm, ⟨4, _⟩ => ⟨S8x1x16x56x56, .f32⟩
  | .hbm, ⟨5, _⟩ => ⟨S_, .f32⟩
  | .hbm, ⟨6, _⟩ => ⟨S8x1x16x56x56, .f32⟩
  | .hbm, ⟨7, _⟩ => ⟨S8x15x16x56x56, .f32⟩
  | .hbm, ⟨8, _⟩ => ⟨S8x16x16x56x56, .f32⟩
  | .hbm, ⟨9, _⟩ => ⟨S8x15x16x56x56, .f32⟩
  | .hbm, ⟨10, _⟩ => ⟨S8x1x16x56x56, .f32⟩
  | .hbm, ⟨11, _⟩ => ⟨S_, .f32⟩
  | .hbm, ⟨12, _⟩ => ⟨S8x1x16x56x56, .f32⟩
  | .hbm, ⟨13, _⟩ => ⟨S8x16x16x56x56, .f32⟩
  | .hbm, ⟨14, _⟩ => ⟨S8x16x16x56x56, .f32⟩
  | .hbm, ⟨15, _⟩ => ⟨S8x16x16x56x56, .f32⟩
  | .hbm, ⟨16, _⟩ => ⟨S_, .f32⟩
  | .hbm, ⟨17, _⟩ => ⟨S8x16x224x56x56, .f32⟩
  | .hbm, ⟨18, _⟩ => ⟨S8x16x256x56x56, .f32⟩
  | .hbm, ⟨19, _⟩ => ⟨S8x16x256x56x56, .f32⟩
  | _, _ => ⟨S8x16x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  slices_S8x16x256x56x56_S8x16x16x56x56_0_0_0_0_0 : S8x16x256x56x56.Slices ![0, 0, 0, 0, 0] S8x16x16x56x56
  slices_S8x16x256x56x56_S8x16x16x56x56_0_0_16_0_0 : S8x16x256x56x56.Slices ![0, 0, 16, 0, 0] S8x16x16x56x56
  slices_S8x16x256x56x56_S8x16x224x56x56_0_0_32_0_0 : S8x16x256x56x56.Slices ![0, 0, 32, 0, 0] S8x16x224x56x56
  slices_S8x16x16x56x56_S8x1x16x56x56_0_0_0_0_0 : S8x16x16x56x56.Slices ![0, 0, 0, 0, 0] S8x1x16x56x56
  bcast_S_S8x1x16x56x56 : S_.BroadcastsInDim S8x1x16x56x56 (![] : Fin 0 → Fin S8x1x16x56x56.rank)
  slices_S8x16x16x56x56_S8x15x16x56x56_0_0_0_0_0 : S8x16x16x56x56.Slices ![0, 0, 0, 0, 0] S8x15x16x56x56
  concatenates_S8x1x16x56x56_S8x15x16x56x56_S8x16x16x56x56_d1 : Shape.Concatenates [S8x1x16x56x56, S8x15x16x56x56] S8x16x16x56x56 1
  slices_S8x16x16x56x56_S8x15x16x56x56_0_1_0_0_0 : S8x16x16x56x56.Slices ![0, 1, 0, 0, 0] S8x15x16x56x56
  slices_S8x16x16x56x56_S8x1x16x56x56_0_15_0_0_0 : S8x16x16x56x56.Slices ![0, 15, 0, 0, 0] S8x1x16x56x56
  concatenates_S8x15x16x56x56_S8x1x16x56x56_S8x16x16x56x56_d1 : Shape.Concatenates [S8x15x16x56x56, S8x1x16x56x56] S8x16x16x56x56 1
  bcast_S_S8x16x224x56x56 : S_.BroadcastsInDim S8x16x224x56x56 (![] : Fin 0 → Fin S8x16x224x56x56.rank)
  concatenates_S8x16x16x56x56_S8x16x16x56x56_S8x16x224x56x56_S8x16x256x56x56_d2 : Shape.Concatenates [S8x16x16x56x56, S8x16x16x56x56, S8x16x224x56x56] S8x16x256x56x56 2

variable [Facts₀]

class Facts : Prop extends Facts₀ where

variable [Facts]
-- ==== Proof.K.Body.lean ====
/-
  The body of the shift kernel at one grid point, and the pipeline's run.

  The grid is (batch 8) × (channel block 8) × (height block 7); a point's block is the slab
  [1, 16 times, 32 channels, 8 rows, 56 columns] of the array, the same slab of the input and of the output.
  At channel block 0 the body stores the TIME-SHIFTED slab (channels 0..15 one step later in time with a zero slab in
  front, channels 16..31 one step earlier with a zero slab behind); at every other channel block it stores the slab it
  loaded. Exactly one of the two branches runs at a point, because their conditions are "the channel-block coordinate
  is zero" and "it is not". Either way the output's staging buffer is covered whole by one store, so what it held
  before (which the body also loads, and discards) does not matter. For every float instance.
-/
import proofs.«119464_j12326556139928_1_alg».proof.Proof.Gen.Kernel.Frame
import proofs.«119464_j12326556139928_1_alg».proof.Proof.Gen.Kernel.Skeleton
import Idealize.ShloMosaic.Lib.Pipeline.Value

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The two branches exclude each other -/

/-- The second branch runs exactly where the first does not: the first tests "channel block = 0", the second
    "channel block ≠ 0", each through a widening and a comparison with zero that change nothing. -/
theorem cond2_iff (i : grid0.Coords) : k0_cond2 i = 1#1 ↔ ¬ k0_cond1 i = 1#1 := by
  have h : ∀ v : Fin 8,
      (Scalar.cmpi .ne (Scalar.extui (Scalar.cmpi .ne (BitVec.ofNat 32 v.val) 0#32) : BitVec 32) 0#32 = 1#1)
        ↔ ¬ (Scalar.cmpi .ne (Scalar.extui (Scalar.cmpi .eq (BitVec.ofNat 32 v.val) 0#32) : BitVec 32) 0#32 = 1#1) := by
    decide
  exact h (i 1)

/-- So the output window is stored at every point: no point is idle for it. -/
theorem idle_out (i : grid0.Coords) : cfg0.idle 1 i = false := by
  show (!(k0_cond1 i == 1#1) && !(k0_cond2 i == 1#1)) = false
  by_cases h1 : k0_cond1 i = 1#1
  · simp [h1]
  · have h2 : k0_cond2 i = 1#1 := (cond2_iff i).mpr h1
    simp [h2]

/-- What the body leaves in the output's staging buffer at grid coordinates `i`, from the input slab `x`: the shifted
    slab at channel block 0, the slab itself elsewhere. -/
def OUT (i : grid0.Coords) (x : Vec F S1x16x32x8x56 .f32) : Vec F S1x16x32x8x56 .f32 :=
  if k0_cond1 i = 1#1 then k0_pay1 x else k0_pay2 x

/-- The whole-buffer rectangle's offsets are zero. -/
theorem off0 : (![0, 0, 0, 0, 0] : Fin 5 → ℕ) = fun _ => 0 := funext fun a => by fin_cases a <;> rfl

/-- One store through the whole-buffer rectangle covers every index of the slab. -/
theorem cover_whole (w : Vec F S1x16x32x8x56 .f32) (y : S1x16x32x8x56.Idx) :
    ∃ pc ∈ ([⟨Rect.unit (s := S1x16x32x8x56) ![0, 0, 0, 0, 0] S1x16x32x8x56.size inb_S1x16x32x8x56_S1x16x32x8x56_0_0_0_0_0, w⟩] :
      List (View.Piece (Elt F) S1x16x32x8x56 .f32)), y ∈ pc.1.set :=
  ⟨_, List.mem_singleton_self _, View.mem_set_unit_zero off0 inb_S1x16x32x8x56_S1x16x32x8x56_0_0_0_0_0 y⟩

/-! ## The body's triple -/

/-- The kernel body at grid coordinates `i`, on whole staging memrefs — the input's at contents `x0`, the output's at
    anything — runs to the continuation holding the input's as it was and the output's at `OUT i x0`: the branch
    the coordinates select loads the input slab, stores its payload over the whole output buffer, and the other
    branch is skipped. -/
theorem sound_kernel (c : Dev nD) (i : grid0.Coords) (arg3 : Memref sig .tc .vmem S1x16x32x8x56 .f32) (harg3 : arg3.IsWhole)
    (arg4 : Memref sig .tc .vmem S1x16x32x8x56 .f32) (harg4 : arg4.IsWhole) (x0 : Vec F S1x16x32x8x56 .f32) (K : PUnit → sProp 𝕄) :
    iprop(owns (c : Thread nD τ) arg3 fullShare x0 ∗ (∃ d, owns (c : Thread nD τ) arg4 fullShare d)
        ∗ (iprop(owns (c : Thread nD τ) arg3 fullShare x0 ∗ owns (c : Thread nD τ) arg4 fullShare (OUT i x0)) -∗ K ⟨⟩))
      ⊢ wp frame (wpE (defs₀ (F := F)) Variants.none c none) Set.univ (cc0__shift_kernel_fastpath i arg3 harg3 arg4 harg4) K := by
  simp only [cc0__shift_kernel_fastpath_eq_skeleton]; unfold cc0__shift_kernel_fastpath_skel
  unfold owns
  iintro ⟨⟨%f0, %hf0, H0⟩, ⟨%d1, %f1, -, H1⟩, Hk⟩
  subst hf0
  by_cases h1 : k0_cond1 i = 1#1
  · have h2 : ¬ k0_cond2 i = 1#1 := fun h => (cond2_iff i).mp h h1
    sl_exec (disch := first | exact h1 | exact h2)
    sl_step
    iapply Hk
    isplitl [H0]
    · iexists f0; isplitr; · ipureintro; rfl
      iexact H0
    iexists _; isplitr
    swap; · iexact H1
    ipureintro
    rw [View.read_writes_eq_canon _ _ _ (cover_whole _), View.canon_unit_zero off0, View.readAt_eq_ld, View.ld_unit_zero off0]
    unfold OUT; rw [if_pos h1]
  · have h2 : k0_cond2 i = 1#1 := (cond2_iff i).mpr h1
    sl_exec (disch := first | exact h1 | exact h2)
    sl_step
    iapply Hk
    isplitl [H0]
    · iexists f0; isplitr; · ipureintro; rfl
      iexact H0
    iexists _; isplitr
    swap; · iexact H1
    ipureintro
    rw [View.read_writes_eq_canon _ _ _ (cover_whole _), View.canon_unit_zero off0, View.readAt_eq_ld, View.ld_unit_zero off0]
    unfold OUT; rw [if_neg h1]

/-! ## The pipeline's proof data -/

variable (m : (ℓ : Loc nD τ sig) → Buf (Elt F) ℓ) (ρ : Dev nD → PrngReg)

/-- The proof data of the one pipeline on core `c`: the arrays as the region finds them; after the body at point `t` the
    input's buffer still at its slab and the output's at `OUT` of the point's coordinates and the input slab; the
    invariant the scoped rest and the generator register (the body uses neither); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => OUT (grid0.coords t) (iblk m c 0 t)
  Φ _ := ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = OUT (grid0.coords t) (iblk m c 0 t) := by dsimp only [dats]

/-- The input's current staging buffer holds its slab at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its slab, the output's holds something; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point (the output window is idle nowhere: `idle_out`). -/
theorem body_obligation (c : Dev nD) : BodyObligation (dats (F := F) m 0 c) (defs₀ (F := F)) Variants.none () Set.univ := fun t => by
  rw [bigSep_W0, bigSep_W0]
  rw [idle_out (cfg0.grid.coords t)]
  exact sound_body m c t

/-! ## The run and the frame -/

set_option backward.isDefEq.respectTransparency.types false in
/-- Every weakly fair execution of @main terminates, and every final state has each array of the pipeline at what
    the write-backs of the proof data's blocks leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without a fault and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Proof.K

end
-- ==== Proof.KI.Body.lean ====
/-
  The body of the shift kernel at one grid point, and the pipeline's run.

  The grid is (batch 8) × (channel block 8) × (height block 7); a point's block is the slab
  [1, 16 times, 32 channels, 8 rows, 56 columns] of the array, the same slab of the input and of the output.
  At channel block 0 the body stores the TIME-SHIFTED slab (channels 0..15 one step later in time with a zero slab in
  front, channels 16..31 one step earlier with a zero slab behind); at every other channel block it stores the slab it
  loaded. Exactly one of the two branches runs at a point, because their conditions are "the channel-block coordinate
  is zero" and "it is not". Either way the output's staging buffer is covered whole by one store, so what it held
  before (which the body also loads, and discards) does not matter. For every float instance.
-/
import proofs.«119464_j12326556139928_1_alg».proof.Proof.Gen.KernelIdeal.Frame
import proofs.«119464_j12326556139928_1_alg».proof.Proof.Gen.KernelIdeal.Skeleton
import Idealize.ShloMosaic.Lib.Pipeline.Value

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The two branches exclude each other -/

/-- The second branch runs exactly where the first does not: the first tests "channel block = 0", the second
    "channel block ≠ 0", each through a widening and a comparison with zero that change nothing. -/
theorem cond2_iff (i : grid0.Coords) : k0_cond2 i = 1#1 ↔ ¬ k0_cond1 i = 1#1 := by
  have h : ∀ v : Fin 8,
      (Scalar.cmpi .ne (Scalar.extui (Scalar.cmpi .ne (BitVec.ofNat 32 v.val) 0#32) : BitVec 32) 0#32 = 1#1)
        ↔ ¬ (Scalar.cmpi .ne (Scalar.extui (Scalar.cmpi .eq (BitVec.ofNat 32 v.val) 0#32) : BitVec 32) 0#32 = 1#1) := by
    decide
  exact h (i 1)

/-- So the output window is stored at every point: no point is idle for it. -/
theorem idle_out (i : grid0.Coords) : cfg0.idle 1 i = false := by
  show (!(k0_cond1 i == 1#1) && !(k0_cond2 i == 1#1)) = false
  by_cases h1 : k0_cond1 i = 1#1
  · simp [h1]
  · have h2 : k0_cond2 i = 1#1 := (cond2_iff i).mpr h1
    simp [h2]

/-- What the body leaves in the output's staging buffer at grid coordinates `i`, from the input slab `x`: the shifted
    slab at channel block 0, the slab itself elsewhere. -/
def OUT (i : grid0.Coords) (x : Vec F S1x16x32x8x56 .f32) : Vec F S1x16x32x8x56 .f32 :=
  if k0_cond1 i = 1#1 then k0_pay1 x else k0_pay2 x

/-- The whole-buffer rectangle's offsets are zero. -/
theorem off0 : (![0, 0, 0, 0, 0] : Fin 5 → ℕ) = fun _ => 0 := funext fun a => by fin_cases a <;> rfl

/-- One store through the whole-buffer rectangle covers every index of the slab. -/
theorem cover_whole (w : Vec F S1x16x32x8x56 .f32) (y : S1x16x32x8x56.Idx) :
    ∃ pc ∈ ([⟨Rect.unit (s := S1x16x32x8x56) ![0, 0, 0, 0, 0] S1x16x32x8x56.size inb_S1x16x32x8x56_S1x16x32x8x56_0_0_0_0_0, w⟩] :
      List (View.Piece (Elt F) S1x16x32x8x56 .f32)), y ∈ pc.1.set :=
  ⟨_, List.mem_singleton_self _, View.mem_set_unit_zero off0 inb_S1x16x32x8x56_S1x16x32x8x56_0_0_0_0_0 y⟩

/-! ## The body's triple -/

/-- The kernel body at grid coordinates `i`, on whole staging memrefs — the input's at contents `x0`, the output's at
    anything — runs to the continuation holding the input's as it was and the output's at `OUT i x0`: the branch
    the coordinates select loads the input slab, stores its payload over the whole output buffer, and the other
    branch is skipped. -/
theorem sound_kernel (c : Dev nD) (i : grid0.Coords) (arg3 : Memref sig .tc .vmem S1x16x32x8x56 .f32) (harg3 : arg3.IsWhole)
    (arg4 : Memref sig .tc .vmem S1x16x32x8x56 .f32) (harg4 : arg4.IsWhole) (x0 : Vec F S1x16x32x8x56 .f32) (K : PUnit → sProp 𝕄) :
    iprop(owns (c : Thread nD τ) arg3 fullShare x0 ∗ (∃ d, owns (c : Thread nD τ) arg4 fullShare d)
        ∗ (iprop(owns (c : Thread nD τ) arg3 fullShare x0 ∗ owns (c : Thread nD τ) arg4 fullShare (OUT i x0)) -∗ K ⟨⟩))
      ⊢ wp frame (wpE (defs₀ (F := F)) Variants.none c none) Set.univ (cc0__shift_kernel_fastpath i arg3 harg3 arg4 harg4) K := by
  simp only [cc0__shift_kernel_fastpath_eq_skeleton]; unfold cc0__shift_kernel_fastpath_skel
  unfold owns
  iintro ⟨⟨%f0, %hf0, H0⟩, ⟨%d1, %f1, -, H1⟩, Hk⟩
  subst hf0
  by_cases h1 : k0_cond1 i = 1#1
  · have h2 : ¬ k0_cond2 i = 1#1 := fun h => (cond2_iff i).mp h h1
    sl_exec (disch := first | exact h1 | exact h2)
    sl_step
    iapply Hk
    isplitl [H0]
    · iexists f0; isplitr; · ipureintro; rfl
      iexact H0
    iexists _; isplitr
    swap; · iexact H1
    ipureintro
    rw [View.read_writes_eq_canon _ _ _ (cover_whole _), View.canon_unit_zero off0, View.readAt_eq_ld, View.ld_unit_zero off0]
    unfold OUT; rw [if_pos h1]
  · have h2 : k0_cond2 i = 1#1 := (cond2_iff i).mpr h1
    sl_exec (disch := first | exact h1 | exact h2)
    sl_step
    iapply Hk
    isplitl [H0]
    · iexists f0; isplitr; · ipureintro; rfl
      iexact H0
    iexists _; isplitr
    swap; · iexact H1
    ipureintro
    rw [View.read_writes_eq_canon _ _ _ (cover_whole _), View.canon_unit_zero off0, View.readAt_eq_ld, View.ld_unit_zero off0]
    unfold OUT; rw [if_neg h1]

/-! ## The pipeline's proof data -/

variable (m : (ℓ : Loc nD τ sig) → Buf (Elt F) ℓ) (ρ : Dev nD → PrngReg)

/-- The proof data of the one pipeline on core `c`: the arrays as the region finds them; after the body at point `t` the
    input's buffer still at its slab and the output's at `OUT` of the point's coordinates and the input slab; the
    invariant the scoped rest and the generator register (the body uses neither); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => OUT (grid0.coords t) (iblk m c 0 t)
  Φ _ := ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = OUT (grid0.coords t) (iblk m c 0 t) := by dsimp only [dats]

/-- The input's current staging buffer holds its slab at every point. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its slab, the output's holds something; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point (the output window is idle nowhere: `idle_out`). -/
theorem body_obligation (c : Dev nD) : BodyObligation (dats (F := F) m 0 c) (defs₀ (F := F)) Variants.none () Set.univ := fun t => by
  rw [bigSep_W0, bigSep_W0]
  rw [idle_out (cfg0.grid.coords t)]
  exact sound_body m c t

/-! ## The run and the frame -/

set_option backward.isDefEq.respectTransparency.types false in
/-- Every weakly fair execution of @main terminates, and every final state has each array of the pipeline at what
    the write-backs of the proof data's blocks leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without a fault and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Proof.KI

end
-- ==== Proof.KI.Payload.lean ====
/-
  The body's two payloads read at an index of the slab [1, 16 times, 32 channels, 8 rows, 56 columns].

  The copying payload is the slab itself (a reshape and its inverse). The shifting payload drops the unit axis, cuts
  the channels into two halves, and on each half joins a zero time-slab with fifteen time-slabs of the input: in
  front on the first half (so time `t` reads time `t - 1`), behind on the second half (so time `t` reads time
  `t + 1`); then the halves are joined again along the channel axis and the unit axis is put back. Each lemma below
  follows one index through that chain of joins, cuts and reshapes. For every float instance.
-/
import proofs.«119464_j12326556139928_1_alg».proof.Proof.Gen.KernelIdeal.Skeleton
import Idealize.ShloMosaic.Lib.Pipeline.Value
import Idealize.ShloMosaic.Lib.ValueIdx

set_option maxRecDepth 16384

noncomputable section

namespace Cert.Proof.KI.Payload

open Cert.KernelIdeal Cert.KernelIdeal.Gen
open Idealize.ShloMosaic Idealize.ShloMosaic.ValueIdx

variable {F : FTy → Type} [FloatOps F]

/-- The copying payload: reshaping away the unit axis and back changes nothing. -/
theorem pay2_eq (x : Vec F S1x16x32x8x56 .f32) : k0_pay2 x = x := by
  unfold k0_pay2
  exact shapeCast_shapeCast x _ _

/-- Putting the unit axis in front of a rank-4 index. -/
theorem cons_ix4 (z : Fin 1) (t : Fin 16) (ch : Fin 32) (h : Fin 8) (w : Fin 56) :
    (Fin.cons (⟨0, Nat.one_pos⟩ : Fin 1) (ix4 t ch h w) : S1x16x32x8x56.Idx) = ix5 z t ch h w := by
  funext a
  match a with
  | ⟨0, _⟩ => apply Fin.ext; have := z.isLt; show 0 = z.val; omega
  | ⟨1, _⟩ => rfl
  | ⟨2, _⟩ => rfl
  | ⟨3, _⟩ => rfl
  | ⟨4, _⟩ => rfl

/-- Dropping the unit axis of a rank-5 index. -/
theorem tail_ix5 (z : Fin 1) (t : Fin 16) (ch : Fin 32) (h : Fin 8) (w : Fin 56) :
    (fun a : Fin 4 => (ix5 z t ch h w : S1x16x32x8x56.Idx) a.succ) = (ix4 t ch h w : S16x32x8x56.Idx) := by
  funext a
  match a with
  | ⟨0, _⟩ => rfl
  | ⟨1, _⟩ => rfl
  | ⟨2, _⟩ => rfl
  | ⟨3, _⟩ => rfl

/-- FIRST HALF OF THE CHANNELS, FIRST TIME STEP: the zero slab joined in front. -/
theorem pay1_fwd_zero (x : Vec F S1x16x32x8x56 .f32) (z : Fin 1) (ch : Fin 32) (h : Fin 8) (w : Fin 56) (hc : ch.val < 16) :
    k0_pay1 x (ix5 z (0 : Fin 16) ch h w) = Scalar.ofBits .f32 0x00000000#32 := by
  unfold k0_pay1
  refine ((shapeCast_addUnit_apply _ _ _ _).trans (congrArg _ (tail_ix5 z 0 ch h w))).trans ?_
  refine (concatenate_pair_apply_left (s₁ := S16x16x8x56) (s₂ := S16x16x8x56) 1 _ _ _ (ix4 (0 : Fin 16) ch h w) rfl (ix4 (0 : Fin 16) (⟨ch.val, hc⟩ : Fin 16) h w) (fun b => by
      match b with
      | ⟨0, _⟩ => rfl
      | ⟨1, _⟩ => rfl
      | ⟨2, _⟩ => rfl
      | ⟨3, _⟩ => rfl)).trans ?_
  refine (concatenate_pair_apply_left (s₁ := S1x16x8x56) (s₂ := S15x16x8x56) 0 _ _ _ (ix4 (0 : Fin 16) (⟨ch.val, hc⟩ : Fin 16) h w) rfl (ix4 (0 : Fin 1) (⟨ch.val, hc⟩ : Fin 16) h w) (fun b => by
      match b with
      | ⟨0, _⟩ => rfl
      | ⟨1, _⟩ => rfl
      | ⟨2, _⟩ => rfl
      | ⟨3, _⟩ => rfl)).trans ?_
  rfl

/-- FIRST HALF OF THE CHANNELS, A LATER TIME STEP `t`: the input one time step earlier. -/
theorem pay1_fwd (x : Vec F S1x16x32x8x56 .f32) (z : Fin 1) (t : Fin 16) (ch : Fin 32) (h : Fin 8) (w : Fin 56)
    (hc : ch.val < 16) (ht : t.val ≠ 0) :
    k0_pay1 x (ix5 z t ch h w) = x (ix5 z (⟨t.val - 1, by omega⟩ : Fin 16) ch h w) := by
  have ht15 : t.val - 1 < 15 := by have := t.isLt; omega
  unfold k0_pay1
  refine ((shapeCast_addUnit_apply _ _ _ _).trans (congrArg _ (tail_ix5 z t ch h w))).trans ?_
  refine (concatenate_pair_apply_left (s₁ := S16x16x8x56) (s₂ := S16x16x8x56) 1 _ _ _ (ix4 t ch h w) rfl (ix4 t (⟨ch.val, hc⟩ : Fin 16) h w) (fun b => by
      match b with
      | ⟨0, _⟩ => rfl
      | ⟨1, _⟩ => rfl
      | ⟨2, _⟩ => rfl
      | ⟨3, _⟩ => rfl)).trans ?_
  refine (concatenate_pair_apply_right (s₁ := S1x16x8x56) (s₂ := S15x16x8x56) 0 _ _ _ (ix4 t (⟨ch.val, hc⟩ : Fin 16) h w) rfl rfl (ix4 (⟨t.val - 1, ht15⟩ : Fin 15) (⟨ch.val, hc⟩ : Fin 16) h w)
    (fun b hb => by
      match b with
      | ⟨0, _⟩ => exact absurd rfl hb
      | ⟨1, _⟩ => rfl
      | ⟨2, _⟩ => rfl
      | ⟨3, _⟩ => rfl)
    (by show (t.val - 1) + 1 = t.val; omega)).trans ?_
  refine (extractStridedSlice_apply _ _ _ (ix4 (⟨t.val - 1, ht15⟩ : Fin 15) (⟨ch.val, hc⟩ : Fin 16) h w) (ix4 (⟨t.val - 1, by omega⟩ : Fin 16) (⟨ch.val, hc⟩ : Fin 16) h w) (fun a => by
    match a with
    | ⟨0, _⟩ => show t.val - 1 = 0 + (t.val - 1); omega
    | ⟨1, _⟩ => show ch.val = 0 + ch.val; omega
    | ⟨2, _⟩ => show h.val = 0 + h.val; omega
    | ⟨3, _⟩ => show w.val = 0 + w.val; omega)).trans ?_
  refine (extractStridedSlice_apply _ _ _ (ix4 (⟨t.val - 1, by omega⟩ : Fin 16) (⟨ch.val, hc⟩ : Fin 16) h w) (ix4 (⟨t.val - 1, by omega⟩ : Fin 16) ch h w) (fun a => by
    match a with
    | ⟨0, _⟩ => show t.val - 1 = 0 + (t.val - 1); omega
    | ⟨1, _⟩ => show ch.val = 0 + ch.val; omega
    | ⟨2, _⟩ => show h.val = 0 + h.val; omega
    | ⟨3, _⟩ => show w.val = 0 + w.val; omega)).trans ?_
  refine (shapeCast_dropUnit_apply _ _ _ _).trans ?_
  exact congrArg x (cons_ix4 z _ ch h w)

/-- SECOND HALF OF THE CHANNELS, LAST TIME STEP: the zero slab joined behind. -/
theorem pay1_bwd_zero (x : Vec F S1x16x32x8x56 .f32) (z : Fin 1) (ch : Fin 32) (h : Fin 8) (w : Fin 56) (hc : 16 ≤ ch.val) :
    k0_pay1 x (ix5 z (15 : Fin 16) ch h w) = Scalar.ofBits .f32 0x00000000#32 := by
  have hch : ch.val - 16 < 16 := by have := ch.isLt; omega
  unfold k0_pay1
  refine ((shapeCast_addUnit_apply _ _ _ _).trans (congrArg _ (tail_ix5 z 15 ch h w))).trans ?_
  refine (concatenate_pair_apply_right (s₁ := S16x16x8x56) (s₂ := S16x16x8x56) 1 _ _ _ (ix4 (15 : Fin 16) ch h w) rfl rfl (ix4 (15 : Fin 16) (⟨ch.val - 16, hch⟩ : Fin 16) h w)
    (fun b hb => by
      match b with
      | ⟨0, _⟩ => rfl
      | ⟨1, _⟩ => exact absurd rfl hb
      | ⟨2, _⟩ => rfl
      | ⟨3, _⟩ => rfl)
    (by show (ch.val - 16) + 16 = ch.val; omega)).trans ?_
  refine (concatenate_pair_apply_right (s₁ := S15x16x8x56) (s₂ := S1x16x8x56) 0 _ _ _ (ix4 (15 : Fin 16) (⟨ch.val - 16, hch⟩ : Fin 16) h w) rfl rfl (ix4 (0 : Fin 1) (⟨ch.val - 16, hch⟩ : Fin 16) h w)
    (fun b hb => by
      match b with
      | ⟨0, _⟩ => exact absurd rfl hb
      | ⟨1, _⟩ => rfl
      | ⟨2, _⟩ => rfl
      | ⟨3, _⟩ => rfl)
    (by rfl)).trans ?_
  rfl

/-- SECOND HALF OF THE CHANNELS, AN EARLIER TIME STEP `t`: the input one time step later. -/
theorem pay1_bwd (x : Vec F S1x16x32x8x56 .f32) (z : Fin 1) (t : Fin 16) (ch : Fin 32) (h : Fin 8) (w : Fin 56)
    (hc : 16 ≤ ch.val) (ht : t.val ≠ 15) :
    k0_pay1 x (ix5 z t ch h w) = x (ix5 z (⟨t.val + 1, by have := t.isLt; omega⟩ : Fin 16) ch h w) := by
  have hch : ch.val - 16 < 16 := by have := ch.isLt; omega
  have ht15 : t.val < 15 := by have := t.isLt; omega
  unfold k0_pay1
  refine ((shapeCast_addUnit_apply _ _ _ _).trans (congrArg _ (tail_ix5 z t ch h w))).trans ?_
  refine (concatenate_pair_apply_right (s₁ := S16x16x8x56) (s₂ := S16x16x8x56) 1 _ _ _ (ix4 t ch h w) rfl rfl (ix4 t (⟨ch.val - 16, hch⟩ : Fin 16) h w)
    (fun b hb => by
      match b with
      | ⟨0, _⟩ => rfl
      | ⟨1, _⟩ => exact absurd rfl hb
      | ⟨2, _⟩ => rfl
      | ⟨3, _⟩ => rfl)
    (by show (ch.val - 16) + 16 = ch.val; omega)).trans ?_
  refine (concatenate_pair_apply_left (s₁ := S15x16x8x56) (s₂ := S1x16x8x56) 0 _ _ _ (ix4 t (⟨ch.val - 16, hch⟩ : Fin 16) h w) rfl (ix4 (⟨t.val, ht15⟩ : Fin 15) (⟨ch.val - 16, hch⟩ : Fin 16) h w) (fun b => by
      match b with
      | ⟨0, _⟩ => rfl
      | ⟨1, _⟩ => rfl
      | ⟨2, _⟩ => rfl
      | ⟨3, _⟩ => rfl)).trans ?_
  refine (extractStridedSlice_apply _ _ _ (ix4 (⟨t.val, ht15⟩ : Fin 15) (⟨ch.val - 16, hch⟩ : Fin 16) h w) (ix4 (⟨t.val + 1, by omega⟩ : Fin 16) (⟨ch.val - 16, hch⟩ : Fin 16) h w) (fun a => by
    match a with
    | ⟨0, _⟩ => show t.val + 1 = 1 + t.val; omega
    | ⟨1, _⟩ => show ch.val - 16 = 0 + (ch.val - 16); omega
    | ⟨2, _⟩ => show h.val = 0 + h.val; omega
    | ⟨3, _⟩ => show w.val = 0 + w.val; omega)).trans ?_
  refine (extractStridedSlice_apply _ _ _ (ix4 (⟨t.val + 1, by omega⟩ : Fin 16) (⟨ch.val - 16, hch⟩ : Fin 16) h w) (ix4 (⟨t.val + 1, by omega⟩ : Fin 16) ch h w) (fun a => by
    match a with
    | ⟨0, _⟩ => show t.val + 1 = 0 + (t.val + 1); omega
    | ⟨1, _⟩ => show ch.val = 16 + (ch.val - 16); omega
    | ⟨2, _⟩ => show h.val = 0 + h.val; omega
    | ⟨3, _⟩ => show w.val = 0 + w.val; omega)).trans ?_
  refine (shapeCast_dropUnit_apply _ _ _ _).trans ?_
  exact congrArg x (cons_ix4 z _ ch h w)

end Cert.Proof.KI.Payload

end
-- ==== Proof.KI.Grid.lean ====
/-
  The grid's points in closed form. Point number `n` of the 8 × 8 × 7 grid (batch, channel block, height block; the
  last axis fastest) has batch `n / 56`, channel block `n / 7 % 8` and height block `n % 7`. Both windows' slabs sit at
  block (batch, 0, channel block, height block, 0) of the array, and the shifting branch runs exactly at channel
  block 0. Each fact is decided over the 448 points.
-/
import proofs.«119464_j12326556139928_1_alg».proof.Proof.Gen.KernelIdeal.Points

-- one decision over the grid at a time
set_option Elab.async false

namespace Cert.Proof.KI.Grid

open Cert.KernelIdeal Cert.KernelIdeal.Gen
open Idealize.ShloMosaic

/-- The output's block index at point `t`, axis by axis. -/
theorem out_index : ∀ t : Fin cfg0.N,
    win0_1.index t (0 : Fin 5) = t.val / 56 ∧ win0_1.index t (1 : Fin 5) = 0 ∧ win0_1.index t (2 : Fin 5) = t.val / 7 % 8
    ∧ win0_1.index t (3 : Fin 5) = t.val % 7 ∧ win0_1.index t (4 : Fin 5) = 0 :=
  (by decide +kernel : ∀ t : Fin grid0.N, _)

/-- The input's block index at point `t`: the same. -/
theorem in_index : ∀ t : Fin cfg0.N,
    win0_0.index t (0 : Fin 5) = t.val / 56 ∧ win0_0.index t (1 : Fin 5) = 0 ∧ win0_0.index t (2 : Fin 5) = t.val / 7 % 8
    ∧ win0_0.index t (3 : Fin 5) = t.val % 7 ∧ win0_0.index t (4 : Fin 5) = 0 :=
  (by decide +kernel : ∀ t : Fin grid0.N, _)

/-- The shifting branch's condition at point `t`: channel block 0. -/
theorem cond1_closed : ∀ t : Fin cfg0.N, (k0_cond1 (grid0.coords t) = 1#1 ↔ t.val / 7 % 8 = 0) :=
  (by decide +kernel : ∀ t : Fin grid0.N, _)

end Cert.Proof.KI.Grid
-- ==== Proof.Spec.lean ====
/-
  The temporal shift as ONE function of the input array, index by index, and the law that joins the two programs.

  The array has axes (batch 8, time 16, channel 256, height 56, width 56). On channels 0..15 the result at time
  `t` is the input at time `t - 1` (zero at `t = 0`); on channels 16..31 it is the input at time `t + 1` (zero at
  `t = 15`); every other channel is the input itself. One program writes exactly that; the other computes
  `x + (shifted - x)` on the shifted channels and `x + 0` elsewhere. On the extended reals `x + (s - x) = s` holds
  when `x` is a real number (at an infinite `x` the left side is not `s`), which is why the input's finiteness is used.
-/
import Idealize.ShloMosaic.PureOps.Ideal
import Idealize.ShloMosaic.PureOps.Ideal.Laws
import Idealize.ShloMosaic.Lib.ValueIdx

noncomputable section

namespace Cert.Shift

open Idealize.ShloMosaic Idealize.ShloMosaic.ValueIdx

/-- The array's shape: batch, time, channel, height, width. -/
abbrev SX : Shape := ⟨5, ![8, 16, 256, 56, 56]⟩

/-- The index one step EARLIER in time (used only where `t ≠ 0`; at `t = 0` it stays at `0`). -/
def prevT (j : SX.Idx) : SX.Idx :=
  ix5 (j 0) (⟨(j 1).val - 1, by have := (j 1).isLt; simp at this ⊢; omega⟩ : Fin 16) (j 2) (j 3) (j 4)

/-- The index one step LATER in time (used only where `t ≠ 15`; at `t = 15` it stays at `15`). -/
def nextT (j : SX.Idx) : SX.Idx :=
  ix5 (j 0) (⟨min ((j 1).val + 1) 15, by omega⟩ : Fin 16) (j 2) (j 3) (j 4)

/-- The temporally shifted array: channels 0..15 take the previous time step (zero at the first), channels 16..31 the
    next time step (zero at the last), the other channels are kept. -/
def shifted (x : SX.Idx → EReal) : SX.Idx → EReal := fun j =>
  if (j 2).val < 16 then (if (j 1).val = 0 then 0 else x (prevT j))
  else if (j 2).val < 32 then (if (j 1).val = 15 then 0 else x (nextT j))
  else x j

theorem prevT_val (j : SX.Idx) : ((prevT j) 0).val = (j 0).val ∧ ((prevT j) 1).val = (j 1).val - 1
    ∧ ((prevT j) 2).val = (j 2).val ∧ ((prevT j) 3).val = (j 3).val ∧ ((prevT j) 4).val = (j 4).val :=
  ⟨rfl, rfl, rfl, rfl, rfl⟩

theorem nextT_val (j : SX.Idx) : ((nextT j) 0).val = (j 0).val ∧ ((nextT j) 1).val = min ((j 1).val + 1) 15
    ∧ ((nextT j) 2).val = (j 2).val ∧ ((nextT j) 3).val = (j 3).val ∧ ((nextT j) 4).val = (j 4).val :=
  ⟨rfl, rfl, rfl, rfl, rfl⟩

/-- The shifted array, case by case. -/
theorem shifted_fwd_zero (x : SX.Idx → EReal) (j : SX.Idx) (hc : (j 2).val < 16) (ht : (j 1).val = 0) : shifted x j = 0 := by
  simp only [shifted, hc, ht, ↓reduceIte]

theorem shifted_fwd (x : SX.Idx → EReal) (j : SX.Idx) (hc : (j 2).val < 16) (ht : ¬ (j 1).val = 0) : shifted x j = x (prevT j) := by
  simp only [shifted, hc, ht, ↓reduceIte]

theorem shifted_bwd_zero (x : SX.Idx → EReal) (j : SX.Idx) (hc : ¬ (j 2).val < 16) (hc' : (j 2).val < 32) (ht : (j 1).val = 15) :
    shifted x j = 0 := by
  simp only [shifted, hc, hc', ht, ↓reduceIte]

theorem shifted_bwd (x : SX.Idx → EReal) (j : SX.Idx) (hc : ¬ (j 2).val < 16) (hc' : (j 2).val < 32) (ht : ¬ (j 1).val = 15) :
    shifted x j = x (nextT j) := by
  simp only [shifted, hc, hc', ht, ↓reduceIte]

theorem shifted_keep (x : SX.Idx → EReal) (j : SX.Idx) (hc : ¬ (j 2).val < 16) (hc' : ¬ (j 2).val < 32) : shifted x j = x j := by
  simp only [shifted, hc, hc', ↓reduceIte]

/-- Two indices of the array with the same five coordinates are equal. -/
theorem idx_ext {i k : SX.Idx} (h0 : (i 0).val = (k 0).val) (h1 : (i 1).val = (k 1).val) (h2 : (i 2).val = (k 2).val)
    (h3 : (i 3).val = (k 3).val) (h4 : (i 4).val = (k 4).val) : i = k := by
  funext a
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-- Adding back what was taken away: for a REAL `x` and any extended real `s` that is a real or zero, `x + (s - x) = s`. -/
theorem add_sub_cancel_real (x s : ℝ) : ((x : EReal) + ((s : EReal) - (x : EReal))) = (s : EReal) := by
  rw [← EReal.coe_sub, ← EReal.coe_add]; congr 1; ring

/-- The same with the zero the programs write at the ends of the time axis. -/
theorem add_zero_sub_cancel_real (x : ℝ) : ((x : EReal) + ((0 : EReal) - (x : EReal))) = 0 := by
  have := add_sub_cancel_real x 0
  simpa using this

end Cert.Shift

end
-- ==== Proof.KI.Value.lean ====
/-
  The output array after the run IS the temporally shifted input, index by index.

  Point `t` of the grid writes back the slab at block (batch, 0, channel block, height block, 0). At channel block 0
  the body left there the shifted slab, whose entry at time `t`, channel `ch < 16` is the input slab at time `t - 1`
  (zero at `t = 0`) and at channel `16 ≤ ch < 32` the input slab at time `t + 1` (zero at `t = 15`): the time axis lies
  whole inside a slab, so the neighbour in time is in the SAME slab, and the slab's channels 0..31 are the array's
  channels 0..31. At every other channel block the body left the input slab, and there the array's channel is at
  least 32, where the shifted array is the input. The slabs tile the array, so the array ends at the shifted input.
-/
import proofs.«119464_j12326556139928_1_alg».proof.Proof.KI.Body
import proofs.«119464_j12326556139928_1_alg».proof.Proof.KI.Payload
import proofs.«119464_j12326556139928_1_alg».proof.Proof.KI.Grid
import proofs.«119464_j12326556139928_1_alg».proof.Proof.Spec
import Idealize.ShloMosaic.PureOps.Ideal.Laws

set_option maxRecDepth 16384

noncomputable section

namespace Cert.Proof.KI.Value

open Cert.KernelIdeal Cert.KernelIdeal.Gen Cert.Proof.KI Cert.Proof.KI.Payload Cert.Shift
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The input slab at point `t`, at slab index `k`, is the input array at the array index under `k`. -/
theorem iblk_apply (c : Dev nD) (t : Fin cfg0.N) (k : S1x16x32x8x56.Idx) :
    iblk m c 0 t k = V m c main_arg0 (((cfg0.win 0).blk t).view.emb k) := rfl

/-- The zero word is the number zero. -/
theorem zero_word : (Scalar.ofBits (F := Ideal) .f32 0x00000000#32 : EReal) = 0 := Ideal.ofBits_zero_f32

/-! ## What a point writes back -/

/-- WHAT POINT `t` WRITES BACK is the slab at `t`'s block of the shifted input array. An array index under slab index
    `(z, tt, ch, h, w)` of the block at `t` has coordinates block index × block extent + slab coordinate. -/
theorem flushed_eq (c : Dev nD) (t : Fin cfg0.N) :
    (dats m 0 c).flushed 1 t = ((cfg0.win 1).blk t).view.read (Elt Ideal) (shifted (V m c main_arg0)) := by
  show (cfg0.win 1).cut (grid0.coords t) ((dats m 0 c).after 1 t) = _
  rw [after0_1]
  obtain ⟨o0, o1, o2, o3, o4⟩ := Grid.out_index t
  obtain ⟨n0, n1, n2, n3, n4⟩ := Grid.in_index t
  have hcond := Grid.cond1_closed t
  have hN : t.val < 448 := lt_of_lt_of_eq t.isLt N_0
  funext j
  show OUT (grid0.coords t) (iblk m c 0 t) j = shifted (V m c main_arg0) (((cfg0.win 1).blk t).view.emb j)
  obtain ⟨z, tt, ch, h, w, rfl⟩ : ∃ (z : Fin 1) (tt : Fin 16) (ch : Fin 32) (h : Fin 8) (w : Fin 56), j = ix5 z tt ch h w :=
    ⟨j 0, j 1, j 2, j 3, j 4, eq_ix5 j⟩
  have v0 : ((((cfg0.win 1).blk t).view.emb (ix5 z tt ch h w)) 0).val = win0_1.index t (0 : Fin 5) * 1 + 1 * z.val := rfl
  have v1 : ((((cfg0.win 1).blk t).view.emb (ix5 z tt ch h w)) 1).val = win0_1.index t (1 : Fin 5) * 16 + 1 * tt.val := rfl
  have v2 : ((((cfg0.win 1).blk t).view.emb (ix5 z tt ch h w)) 2).val = win0_1.index t (2 : Fin 5) * 32 + 1 * ch.val := rfl
  have v3 : ((((cfg0.win 1).blk t).view.emb (ix5 z tt ch h w)) 3).val = win0_1.index t (3 : Fin 5) * 8 + 1 * h.val := rfl
  have v4 : ((((cfg0.win 1).blk t).view.emb (ix5 z tt ch h w)) 4).val = win0_1.index t (4 : Fin 5) * 56 + 1 * w.val := rfl
  have hz := z.isLt; have htt := tt.isLt; have hch := ch.isLt; have hh := h.isLt; have hw := w.isLt
  by_cases hc1 : k0_cond1 (grid0.coords t) = 1#1
  · -- channel block 0: the shifted slab; the array's channel is the slab's
    have hq2 : t.val / 7 % 8 = 0 := hcond.mp hc1
    unfold OUT; rw [if_pos hc1]
    by_cases hlo : ch.val < 16
    · by_cases ht0 : tt.val = 0
      · obtain rfl : tt = 0 := Fin.ext ht0
        rw [pay1_fwd_zero _ z ch h w hlo, shifted_fwd_zero _ _ (by omega) (by omega)]
        exact zero_word
      · rw [pay1_fwd _ z tt ch h w hlo ht0, shifted_fwd _ _ (by omega) (by omega), iblk_apply]
        refine congrArg _ (idx_ext ?_ ?_ ?_ ?_ ?_)
        · show win0_0.index t (0 : Fin 5) * 1 + 1 * z.val = win0_1.index t (0 : Fin 5) * 1 + 1 * z.val; omega
        · show win0_0.index t (1 : Fin 5) * 16 + 1 * (tt.val - 1) = (win0_1.index t (1 : Fin 5) * 16 + 1 * tt.val) - 1; omega
        · show win0_0.index t (2 : Fin 5) * 32 + 1 * ch.val = win0_1.index t (2 : Fin 5) * 32 + 1 * ch.val; omega
        · show win0_0.index t (3 : Fin 5) * 8 + 1 * h.val = win0_1.index t (3 : Fin 5) * 8 + 1 * h.val; omega
        · show win0_0.index t (4 : Fin 5) * 56 + 1 * w.val = win0_1.index t (4 : Fin 5) * 56 + 1 * w.val; omega
    · have hhi : 16 ≤ ch.val := Nat.le_of_not_lt hlo
      by_cases ht15 : tt.val = 15
      · obtain rfl : tt = 15 := Fin.ext ht15
        rw [pay1_bwd_zero _ z ch h w hhi, shifted_bwd_zero _ _ (by omega) (by omega) (by omega)]
        exact zero_word
      · rw [pay1_bwd _ z tt ch h w hhi ht15, shifted_bwd _ _ (by omega) (by omega) (by omega), iblk_apply]
        refine congrArg _ (idx_ext ?_ ?_ ?_ ?_ ?_)
        · show win0_0.index t (0 : Fin 5) * 1 + 1 * z.val = win0_1.index t (0 : Fin 5) * 1 + 1 * z.val; omega
        · show win0_0.index t (1 : Fin 5) * 16 + 1 * (tt.val + 1) = min ((win0_1.index t (1 : Fin 5) * 16 + 1 * tt.val) + 1) 15; omega
        · show win0_0.index t (2 : Fin 5) * 32 + 1 * ch.val = win0_1.index t (2 : Fin 5) * 32 + 1 * ch.val; omega
        · show win0_0.index t (3 : Fin 5) * 8 + 1 * h.val = win0_1.index t (3 : Fin 5) * 8 + 1 * h.val; omega
        · show win0_0.index t (4 : Fin 5) * 56 + 1 * w.val = win0_1.index t (4 : Fin 5) * 56 + 1 * w.val; omega
  · -- another channel block: the slab itself, and the array's channel is at least 32
    have hq2 : ¬ t.val / 7 % 8 = 0 := fun hq => hc1 (hcond.mpr hq)
    unfold OUT; rw [if_neg hc1, pay2_eq, iblk_apply, shifted_keep _ _ (by omega) (by omega)]
    refine congrArg _ (idx_ext ?_ ?_ ?_ ?_ ?_)
    · show win0_0.index t (0 : Fin 5) * 1 + 1 * z.val = win0_1.index t (0 : Fin 5) * 1 + 1 * z.val; omega
    · show win0_0.index t (1 : Fin 5) * 16 + 1 * tt.val = win0_1.index t (1 : Fin 5) * 16 + 1 * tt.val; omega
    · show win0_0.index t (2 : Fin 5) * 32 + 1 * ch.val = win0_1.index t (2 : Fin 5) * 32 + 1 * ch.val; omega
    · show win0_0.index t (3 : Fin 5) * 8 + 1 * h.val = win0_1.index t (3 : Fin 5) * 8 + 1 * h.val; omega
    · show win0_0.index t (4 : Fin 5) * 56 + 1 * w.val = win0_1.index t (4 : Fin 5) * 56 + 1 * w.val; omega

/-! ## The slabs tile the array -/

/-- An index of the array is in point `t`'s block iff each coordinate is in the block's range on its axis. -/
theorem mem_blk (t : Fin cfg0.N) (i : S8x16x256x56x56.Idx) :
    i ∈ ((cfg0.win 1).blk t).view.set ↔ ∀ a : Fin 5, win0_1.index t a * S1x16x32x8x56.size a ≤ (i a).val
      ∧ (i a).val < win0_1.index t a * S1x16x32x8x56.size a + S1x16x32x8x56.size a := by
  show i ∈ ((View.whole main_v0).slice (win0_1.rect t)).set ↔ _
  rw [View.set_slice_whole, Rect.mem_set_unit]
  exact Iff.rfl

/-- Every index of the array lies in the block of the point whose block index is (batch, 0, channel / 32, row / 8, 0). -/
theorem cover (i : S8x16x256x56x56.Idx) :
    ∃ t : Fin cfg0.N, (cfg0.win 1).flush t = true ∧ i ∈ ((cfg0.win 1).blk t).view.set := by
  have hi0 : (i 0).val < 8 := (i 0).isLt
  have hi1 : (i 1).val < 16 := (i 1).isLt
  have hi2 : (i 2).val < 256 := (i 2).isLt
  have hi3 : (i 3).val < 56 := (i 3).isLt
  have hi4 : (i 4).val < 56 := (i 4).isLt
  obtain ⟨n, hn⟩ : ∃ n : ℕ, n = (i 0).val * 56 + (i 2).val / 32 * 7 + (i 3).val / 8 := ⟨_, rfl⟩
  have hlt : n < cfg0.N := by show n < grid0.N; rw [N_0]; omega
  obtain ⟨t, ht⟩ : ∃ t : Fin cfg0.N, t.val = n := ⟨⟨n, hlt⟩, rfl⟩
  obtain ⟨q0, q1, q2, q3, q4⟩ := Grid.out_index t
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 16 ≤ (i 1).val ∧ (i 1).val < win0_1.index t (1 : Fin 5) * 16 + 16; omega
  | ⟨2, _⟩ => show win0_1.index t (2 : Fin 5) * 32 ≤ (i 2).val ∧ (i 2).val < win0_1.index t (2 : Fin 5) * 32 + 32; omega
  | ⟨3, _⟩ => show win0_1.index t (3 : Fin 5) * 8 ≤ (i 3).val ∧ (i 3).val < win0_1.index t (3 : Fin 5) * 8 + 8; omega
  | ⟨4, _⟩ => show win0_1.index t (4 : Fin 5) * 56 ≤ (i 4).val ∧ (i 4).val < win0_1.index t (4 : Fin 5) * 56 + 56; omega

/-! ## The array after the run -/

/-- THE OUTPUT ARRAY after every write-back: the shifted input. -/
theorem final (c : Dev nD) : (dats m 0 c).arrAt 1 cfg0.N = shifted (m ((c : Thread nD τ).loc main_arg0)) :=
  (dats m 0 c).arrAt_eq_of_cover 1 (shifted (V m c main_arg0)) (fun t _ => flushed_eq m c t) cover

/-- The run re-posted: the result array at the shifted input, the argument unchanged. -/
theorem run : θ_run defs (onTc (τ := τ) (main (F := Ideal))) ⟨m, fun _ => 0, ρ⟩ fun r => ∀ c : Dev nD,
      r.2.mem ((c : Thread nD τ).loc main_v0) = shifted (m ((c : Thread nD τ).loc main_arg0))
      ∧ r.2.mem ((c : Thread nD τ).loc main_arg0) = m ((c : Thread nD τ).loc main_arg0) :=
  (θ_run defs _ _).mono (fun r hr c => ⟨((hr c).1 1).trans (final m c),
      ((hr c).1 0).trans (((dats m 0 c).arrAt_in 0 rfl _).trans ((A_eq m c 0).trans (V_main_arg0 m c)))⟩)
    (run_main m ρ)

end Cert.Proof.KI.Value

end
-- ==== Proof.RefValue.lean ====
import proofs.«119464_j12326556139928_1_alg».proof.Proof.Gen.ReferenceIdeal.Read
import proofs.«119464_j12326556139928_1_alg».proof.Proof.Spec
import Idealize.ShloMosaic.Lib.Pipeline.Value
import Idealize.ShloMosaic.Lib.ValueIdx
import Idealize.ShloMosaic.PureOps.Ideal.Laws
/-
  The reference program's result is the temporally shifted array.

  The reference cuts the channel axis into the blocks 0..15, 16..31 and 32..255. For the first block it lays a
  zero time step in front of time steps 0..14 (so time `t` reads time `t - 1`, and time 0 reads zero), for the
  second it lays a zero time step behind time steps 1..15 (so time `t` reads time `t + 1`, and time 15 reads
  zero); from each it subtracts the block itself, joins the two differences with a zero block for the remaining
  channels, and adds the whole to the input. Entry by entry this is `x + (s - x)` on the first two blocks and
  `x + 0` on the third, and `x + (s - x) = s` because every entry of the input is a real number.

  Each stage is read at one index: a block of the input at the index with the channel moved by the block's start,
  a join of two pieces at the piece that holds the index's coordinate on the joined axis.
-/

noncomputable section

namespace Cert.Shift.Ref

open Cert.ReferenceIdeal Cert.ReferenceIdeal.Read Idealize.ShloMosaic Idealize.ShloMosaic.ValueIdx

/-- The input array, as the reference takes it. -/
abbrev Arr : Type := S8x16x256x56x56.Idx → EReal

/-! ### The two channel blocks of the input -/

/-- Channels 0..15 of the input: an index of the block reads the input at the same coordinates. -/
theorem v0_at (x : Arr) (a : S8x16x16x56x56.Idx) (j : S8x16x256x56x56.Idx)
    (h0 : (a 0).val = (j 0).val) (h1 : (a 1).val = (j 1).val) (h2 : (a 2).val = (j 2).val)
    (h3 : (a 3).val = (j 3).val) (h4 : (a 4).val = (j 4).val) :
    val_main_v0 (F := Ideal) x a = x j := by
  rw [val_main_v0_apply]
  exact congrArg x (Cert.Shift.idx_ext h0 h1 h2 h3 h4)

/-- Channels 16..31 of the input: an index of the block reads the input 16 channels further on. -/
theorem v1_at (x : Arr) (a : S8x16x16x56x56.Idx) (j : S8x16x256x56x56.Idx)
    (h0 : (a 0).val = (j 0).val) (h1 : (a 1).val = (j 1).val) (h2 : 16 + (a 2).val = (j 2).val)
    (h3 : (a 3).val = (j 3).val) (h4 : (a 4).val = (j 4).val) :
    val_main_v1 (F := Ideal) x a = x j := by
  rw [val_main_v1_apply]
  exact congrArg x (Cert.Shift.idx_ext h0 h1 h2 h3 h4)

/-! ### The two shifted blocks -/

/-- The first block shifted: a zero time step, then time steps 0..14 of the block. At time 0 it is zero, at a later
    time the input one time step earlier. -/
theorem v6_at (x : Arr) (a : S8x16x16x56x56.Idx) (j : S8x16x256x56x56.Idx)
    (h0 : (a 0).val = (j 0).val) (h1 : (a 1).val = (j 1).val) (h2 : (a 2).val = (j 2).val)
    (h3 : (a 3).val = (j 3).val) (h4 : (a 4).val = (j 4).val) :
    val_main_v6 (F := Ideal) x a = if (j 1).val = 0 then 0 else x (Cert.Shift.prevT j) := by
  unfold val_main_v6
  by_cases ht : (j 1).val = 0
  · -- the zero time step
    rw [if_pos ht]
    rw [concatenate_pair_apply_left (t := S8x16x16x56x56) (s₁ := S8x1x16x56x56) (s₂ := S8x15x16x56x56) 1 _ _ _ a rfl
      (ix5 (a 0 : Fin 8) (⟨0, by decide⟩ : Fin 1) (a 2 : Fin 16) (a 3 : Fin 56) (a 4 : Fin 56)) (fun b => by
        match b with
        | ⟨0, _⟩ => rfl
        | ⟨1, _⟩ => show 0 = (a 1).val; omega
        | ⟨2, _⟩ => rfl
        | ⟨3, _⟩ => rfl
        | ⟨4, _⟩ => rfl)]
    rw [val_main_v4_apply, val_main_cst_apply]
    exact Ideal.ofBits_zero_f32
  · -- time steps 0..14, moved one step later
    rw [if_neg ht]
    have hlt : (a 1).val - 1 < 15 := by have := (a 1).isLt; simp at this; omega
    rw [concatenate_pair_apply_right (t := S8x16x16x56x56) (s₁ := S8x1x16x56x56) (s₂ := S8x15x16x56x56) 1 _ _ _ a rfl rfl
      (ix5 (a 0 : Fin 8) (⟨(a 1).val - 1, hlt⟩ : Fin 15) (a 2 : Fin 16) (a 3 : Fin 56) (a 4 : Fin 56))
      (fun b hb => by
        match b with
        | ⟨0, _⟩ => rfl
        | ⟨1, _⟩ => exact absurd rfl hb
        | ⟨2, _⟩ => rfl
        | ⟨3, _⟩ => rfl
        | ⟨4, _⟩ => rfl)
      (by show (a 1).val - 1 + 1 = (a 1).val; omega)]
    rw [val_main_v5_apply, val_main_v0_apply]
    refine congrArg x (Cert.Shift.idx_ext ?_ ?_ ?_ ?_ ?_)
    · exact h0
    · show (a 1).val - 1 = (j 1).val - 1; omega
    · exact h2
    · exact h3
    · exact h4

/-- The second block shifted: time steps 1..15 of the block, then a zero time step. At time 15 it is zero, at an
    earlier time the input one time step later. -/
theorem v10_at (x : Arr) (a : S8x16x16x56x56.Idx) (j : S8x16x256x56x56.Idx)
    (h0 : (a 0).val = (j 0).val) (h1 : (a 1).val = (j 1).val) (h2 : 16 + (a 2).val = (j 2).val)
    (h3 : (a 3).val = (j 3).val) (h4 : (a 4).val = (j 4).val) :
    val_main_v10 (F := Ideal) x a = if (j 1).val = 15 then 0 else x (Cert.Shift.nextT j) := by
  unfold val_main_v10
  have hj : (j 1).val < 16 := (j 1).isLt
  by_cases ht : (j 1).val = 15
  · -- the zero time step
    rw [if_pos ht]
    rw [concatenate_pair_apply_right (t := S8x16x16x56x56) (s₁ := S8x15x16x56x56) (s₂ := S8x1x16x56x56) 1 _ _ _ a rfl rfl
      (ix5 (a 0 : Fin 8) (⟨0, by decide⟩ : Fin 1) (a 2 : Fin 16) (a 3 : Fin 56) (a 4 : Fin 56))
      (fun b hb => by
        match b with
        | ⟨0, _⟩ => rfl
        | ⟨1, _⟩ => exact absurd rfl hb
        | ⟨2, _⟩ => rfl
        | ⟨3, _⟩ => rfl
        | ⟨4, _⟩ => rfl)
      (by show 0 + 15 = (a 1).val; omega)]
    rw [val_main_v9_apply, val_main_cst_0_apply]
    exact Ideal.ofBits_zero_f32
  · -- time steps 1..15, moved one step earlier
    rw [if_neg ht]
    have hlt : (a 1).val < 15 := by omega
    rw [concatenate_pair_apply_left (t := S8x16x16x56x56) (s₁ := S8x15x16x56x56) (s₂ := S8x1x16x56x56) 1 _ _ _ a rfl
      (ix5 (a 0 : Fin 8) (⟨(a 1).val, hlt⟩ : Fin 15) (a 2 : Fin 16) (a 3 : Fin 56) (a 4 : Fin 56)) (fun b => by
        match b with
        | ⟨0, _⟩ => rfl
        | ⟨1, _⟩ => rfl
        | ⟨2, _⟩ => rfl
        | ⟨3, _⟩ => rfl
        | ⟨4, _⟩ => rfl)]
    rw [val_main_v7_apply, val_main_v1_apply]
    refine congrArg x (Cert.Shift.idx_ext ?_ ?_ ?_ ?_ ?_)
    · exact h0
    · show 1 + (a 1).val = min ((j 1).val + 1) 15; omega
    · exact h2
    · exact h3
    · exact h4

/-! ### The correction term, by channel block -/

/-- The three pieces the correction term is joined from along the channel axis: the two differences (16 channels
    each) and the zero block (224 channels). -/
abbrev pieces (x : Arr) : List ((s : Shape) × (s.Idx → EReal)) :=
  [⟨S8x16x16x56x56, val_main_v11 (F := Ideal) x⟩, ⟨S8x16x16x56x56, val_main_v12 (F := Ideal) x⟩,
    ⟨S8x16x224x56x56, val_main_v13 (F := Ideal)⟩]

/-- On channels 0..15 the correction is the earlier time step (zero at time 0) less the entry itself. -/
theorem v14_lo (x : Arr) (j : S8x16x256x56x56.Idx) (hc : (j 2).val < 16) :
    val_main_v14 (F := Ideal) x j = (if (j 1).val = 0 then 0 else x (Cert.Shift.prevT j)) - x j := by
  unfold val_main_v14
  rw [concatenate_apply_piece (t := S8x16x256x56x56) 2 (pieces x)
    Gen.concatenates_S8x16x16x56x56_S8x16x16x56x56_S8x16x224x56x56_S8x16x256x56x56_d2 j 0
    (by show (0 : Nat) < 3; decide) S8x16x16x56x56 (val_main_v11 (F := Ideal) x) rfl rfl 0 rfl
    (ix5 (j 0 : Fin 8) (j 1 : Fin 16) (⟨(j 2).val, hc⟩ : Fin 16) (j 3 : Fin 56) (j 4 : Fin 56))
    (fun b hb => by
      match b with
      | ⟨0, _⟩ => rfl
      | ⟨1, _⟩ => rfl
      | ⟨2, _⟩ => exact absurd rfl hb
      | ⟨3, _⟩ => rfl
      | ⟨4, _⟩ => rfl)
    (by show 0 + (j 2).val = (j 2).val; omega)]
  rw [val_main_v11_apply, v6_at x _ j rfl rfl rfl rfl rfl, v0_at x _ j rfl rfl rfl rfl rfl]
  rfl

/-- On channels 16..31 the correction is the later time step (zero at time 15) less the entry itself. -/
theorem v14_mid (x : Arr) (j : S8x16x256x56x56.Idx) (hc1 : 16 ≤ (j 2).val) (hc2 : (j 2).val < 32) :
    val_main_v14 (F := Ideal) x j = (if (j 1).val = 15 then 0 else x (Cert.Shift.nextT j)) - x j := by
  unfold val_main_v14
  have hlt : (j 2).val - 16 < 16 := by omega
  have hcc : 16 + ((j 2).val - 16) = (j 2).val := by omega
  rw [concatenate_apply_piece (t := S8x16x256x56x56) 2 (pieces x)
    Gen.concatenates_S8x16x16x56x56_S8x16x16x56x56_S8x16x224x56x56_S8x16x256x56x56_d2 j 1
    (by show (1 : Nat) < 3; decide) S8x16x16x56x56 (val_main_v12 (F := Ideal) x) rfl rfl 16 rfl
    (ix5 (j 0 : Fin 8) (j 1 : Fin 16) (⟨(j 2).val - 16, hlt⟩ : Fin 16) (j 3 : Fin 56) (j 4 : Fin 56))
    (fun b hb => by
      match b with
      | ⟨0, _⟩ => rfl
      | ⟨1, _⟩ => rfl
      | ⟨2, _⟩ => exact absurd rfl hb
      | ⟨3, _⟩ => rfl
      | ⟨4, _⟩ => rfl)
    hcc]
  rw [val_main_v12_apply, v10_at x _ j rfl rfl hcc rfl rfl, v1_at x _ j rfl rfl hcc rfl rfl]
  rfl

/-- On channels 32..255 the correction is zero. -/
theorem v14_hi (x : Arr) (j : S8x16x256x56x56.Idx) (hc : 32 ≤ (j 2).val) :
    val_main_v14 (F := Ideal) x j = 0 := by
  unfold val_main_v14
  have hj : (j 2).val < 256 := (j 2).isLt
  have hlt : (j 2).val - 32 < 224 := by omega
  rw [concatenate_apply_piece (t := S8x16x256x56x56) 2 (pieces x)
    Gen.concatenates_S8x16x16x56x56_S8x16x16x56x56_S8x16x224x56x56_S8x16x256x56x56_d2 j 2
    (by show (2 : Nat) < 3; decide) S8x16x224x56x56 (val_main_v13 (F := Ideal)) rfl rfl 32 rfl
    (ix5 (j 0 : Fin 8) (j 1 : Fin 16) (⟨(j 2).val - 32, hlt⟩ : Fin 224) (j 3 : Fin 56) (j 4 : Fin 56))
    (fun b hb => by
      match b with
      | ⟨0, _⟩ => rfl
      | ⟨1, _⟩ => rfl
      | ⟨2, _⟩ => exact absurd rfl hb
      | ⟨3, _⟩ => rfl
      | ⟨4, _⟩ => rfl)
    (by show 32 + ((j 2).val - 32) = (j 2).val; omega)]
  rw [val_main_v13_apply, val_main_cst_1_apply]
  exact Ideal.ofBits_zero_f32

/-! ### The reference's result -/

/-- On an input whose entries are all real numbers the reference computes the temporally shifted array. -/
theorem ref_eq_shifted [Cert.ReferenceIdeal.Facts] (x : Cert.Shift.SX.Idx → EReal)
    (hfin : ∀ i, ∃ r : ℝ, x i = (r : EReal)) :
    Cert.ReferenceIdeal.Read.val_main_v15 (F := Ideal) x = Cert.Shift.shifted x := by
  funext j
  rw [val_main_v15_apply]
  show x j + val_main_v14 (F := Ideal) x j = Cert.Shift.shifted x j
  unfold Cert.Shift.shifted
  obtain ⟨r, hr⟩ := hfin j
  by_cases hc : (j 2).val < 16
  · rw [if_pos hc, v14_lo x j hc]
    by_cases ht : (j 1).val = 0
    · rw [if_pos ht, hr]
      exact Cert.Shift.add_zero_sub_cancel_real r
    · rw [if_neg ht]
      obtain ⟨s, hs⟩ := hfin (Cert.Shift.prevT j)
      rw [hr, hs]
      exact Cert.Shift.add_sub_cancel_real r s
  · rw [if_neg hc]
    by_cases hc2 : (j 2).val < 32
    · rw [if_pos hc2, v14_mid x j (by omega) hc2]
      by_cases ht : (j 1).val = 15
      · rw [if_pos ht, hr]
        exact Cert.Shift.add_zero_sub_cancel_real r
      · rw [if_neg ht]
        obtain ⟨s, hs⟩ := hfin (Cert.Shift.nextT j)
        rw [hr, hs]
        exact Cert.Shift.add_sub_cancel_real r s
    · rw [if_neg hc2, v14_hi x j (by omega), add_zero]

end Cert.Shift.Ref

end
-- ==== Proof.Finite.lean ====
/-
  From the printed precondition to the fact the value proof uses: every entry of the input is a real number.

  The precondition says that the conjunction, over all entries, of the tests `|x| < +∞` is true. A conjunction
  that is true has every conjunct true, so `max x (-x) < ⊤` holds at each entry; an extended real with that
  property is neither `⊤` (then `max x (-x) = ⊤`) nor `⊥` (then `-x = ⊤`), hence a real number.
-/
import proofs.«119464_j12326556139928_1_alg».proof.Pre_finite_inputs
import Idealize.ShloMosaic.Lib.ReduceAll
import Idealize.ShloMosaic.PureOps.Ideal
import Idealize.ShloMosaic.Lib.ValueIdx

noncomputable section

namespace Cert.Shift.Finite

open Idealize.ShloMosaic

/-- A reduction over all five axes leaves a result with a single index. -/
instance : Subsingleton Cert.Pre_finite_inputs.S_.Idx := ⟨fun _ _ => funext fun d => d.elim0⟩

/-- The word `0x7F800000` denotes `+∞`. -/
theorem ofBits_inf : Ideal.ofBits .f32 0x7F800000#32 = ⊤ := by simp [Ideal.ofBits, Ideal.ieee]

/-- An extended real whose absolute value `max x (-x)` lies below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `a < b` on the extended reals answers 1 only where `a < b`. -/
theorem lt_of_cmp_olt (a b : EReal) (h : Ideal.cmp .olt a b = 1#1) : a < b := by
  unfold Ideal.cmp at h
  by_contra hn
  simp [hn] at h

/-- Under the precondition every entry of the input is a real number. -/
theorem finite_of_pre [Cert.Pre_finite_inputs.Facts] (x : FVec Ideal Cert.Pre_finite_inputs.S8x16x256x56x56 .f32)
    (h : Cert.Pre_finite_inputs.fn (F := Ideal) x = fun _ => 1#1) : ∀ i, ∃ r : ℝ, x i = (r : EReal) := by
  intro i
  -- the conjunction over all entries is true
  have h0 := congrFun h ValueIdx.ix0
  dsimp only [Cert.Pre_finite_inputs.fn] at h0
  -- so the test at entry `i` is true
  have hi := Host.reduce_andi_all _ _ _ _ _ h0 i
  have hc : Ideal.cmp .olt (max (x i) (-(x i))) (Ideal.ofBits .f32 0x7F800000#32) = 1#1 := hi
  rw [ofBits_inf] at hc
  exact real_of_abs_lt_top _ (lt_of_cmp_olt _ _ hc)

end Cert.Shift.Finite

end
-- ==== Proof.lean ====
/-
  The temporal-shift kernel against its reference, over the extended reals, for finite inputs.

  Both programs send an array `x` of shape (batch, time, channel, height, width) = (8, 16, 256, 56, 56) to the array
  that on channels 0..15 holds `x` one time step earlier (zero at the first step), on channels 16..31 holds `x` one
  time step later (zero at the last step), and on the other channels holds `x` (`Cert.Shift.shifted`).
  The kernel writes that array slab by slab: at channel block 0 a slab's two channel halves are re-joined with a zero
  time-slab in front (resp. behind), elsewhere the slab is copied; the slabs tile the array (Proof/KI/Value.lean).
  The reference computes `x + (shifted - x)` on channels 0..31 and `x + 0` elsewhere; `x + (s - x) = s` holds on the
  extended reals when `x` is a real number, which the precondition gives (Proof/RefValue.lean, Proof/Finite.lean).
  The frames: each kernel program's body runs one of its two branches at every grid point, stores the whole output
  slab, and leaves the input slab alone (Proof/K/Body.lean for the word-level program, Proof/KI/Body.lean for the
  idealized one); the reference is a sequence of host operations.
  The idealization rewrote no operation, so there is nothing to preserve.
-/
import proofs.«119464_j12326556139928_1_alg».proof.Defs
import proofs.«119464_j12326556139928_1_alg».proof.Proof.Gen.Kernel
import proofs.«119464_j12326556139928_1_alg».proof.Proof.Gen.KernelIdeal
import proofs.«119464_j12326556139928_1_alg».proof.Proof.Gen.ReferenceIdeal
import proofs.«119464_j12326556139928_1_alg».proof.Proof.Gen.ReferenceIdeal.Run
import proofs.«119464_j12326556139928_1_alg».proof.Proof.Gen.ReferenceIdeal.Read
import proofs.«119464_j12326556139928_1_alg».proof.Proof.Gen.Pre_finite_inputs
import proofs.«119464_j12326556139928_1_alg».proof.Proof.K.Body
import proofs.«119464_j12326556139928_1_alg».proof.Proof.KI.Body
import proofs.«119464_j12326556139928_1_alg».proof.Proof.KI.Value
import proofs.«119464_j12326556139928_1_alg».proof.Proof.RefValue
import proofs.«119464_j12326556139928_1_alg».proof.Proof.Finite
import Idealize.ShloMosaic.Adequacy
import Idealize.ShloMosaic.Init

noncomputable section

namespace Cert.Proof

open Idealize.ShloMosaic Idealize.SL.Sem

/-- The word-level kernel runs to the end without a fault and leaves its argument unchanged. -/
theorem frame_k : Cert.frame_Kernel := fun m ρ _ => Cert.Proof.K.frame (F := Bits) m ρ

/-- So does the idealized kernel. -/
theorem frame_ki : Cert.frame_KernelIdeal := fun m ρ _ => Cert.Proof.KI.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the argument, both programs end with the result array at the shifted argument:
    the kernel by its slabs, the reference by `x + (s - x) = s` at the real entries the precondition guarantees. -/
theorem algebraic : Cert.algebraic_KernelIdeal_ReferenceIdeal := by
  intro m ρ m' ρ' hpre hagree
  refine ⟨fun c => Cert.Shift.shifted (m ((c.tc : Thread Cert.KernelIdeal.nD Cert.KernelIdeal.τ).loc Cert.KernelIdeal.main_arg0)),
    Cert.Proof.KI.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  exact Cert.Shift.Ref.ref_eq_shifted _ (Cert.Shift.Finite.finite_of_pre _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
